-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x300 : Shape := ⟨2, ![256, 300]⟩
abbrev S300 : Shape := ⟨1, ![300]⟩
abbrev S300x2 : Shape := ⟨2, ![300, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x300 : S_.BroadcastsInDim S256x300 (![] : Fin 0 → Fin S256x300.rank)
  reducesTo_S256x300_S_d0_1 : S256x300.ReducesTo [0, 1] S_
  bcast_S_S300 : S_.BroadcastsInDim S300 (![] : Fin 0 → Fin S300.rank)
  reducesTo_S300_S_d0 : S300.ReducesTo [0] S_
  bcast_S_S300x2 : S_.BroadcastsInDim S300x2 (![] : Fin 0 → Fin S300x2.rank)
  reducesTo_S300x2_S_d0_1 : S300x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S300x2 1) : IVec S_ 1 :=
  let main_c_5 : IVec S_ 1 := constantI S_ 1 1#1
  let main_v17 : IVec S_ 1 := (fun x v => Host.reduce IntOp.andi x v reducesTo_S300x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x300 .f32) (main_arg3 : FVec F S300 .f32) (main_arg4 : FVec F S300x2 .f32) (main_arg5 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x300 .f32 := Host.absf main_arg2
  let main_cst_0 : FVec F S_ .f32 := constant S_ .f32 0x7F800000#32
  let main_v5 : FVec F S256x300 .f32 := broadcastInDim S256x300 ![] bcast_S_S256x300 main_cst_0
  let main_v6 : IVec S256x300 1 := cmpf .olt main_v4 main_v5
  let main_c_1 : IVec S_ 1 := constantI S_ 1 1#1
  let main_v7 : IVec S_ 1 := (fun x v => Host.reduce IntOp.andi x v reducesTo_S256x300_S_d0_1 h_S_) main_v6 main_c_1
  let main_v8 : IVec S_ 1 := andi main_v3 main_v7
  let main_v9 : FVec F S300 .f32 := Host.absf main_arg3
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x2 .f32 := Host.absf main_arg4
  let main_cst_4 : FVec F S_ .f32 := constant S_ .f32 0x7F800000#32
  let main_v15 : FVec F S300x2 .f32 := broadcastInDim S300x2 ![] bcast_S_S300x2 main_cst_4
  let main_v16 : IVec S300x2 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x300 : Shape := ⟨2, ![256, 300]⟩
abbrev S300 : Shape := ⟨1, ![300]⟩
abbrev S300x2 : Shape := ⟨2, ![300, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x300 : Shape := ⟨2, ![50000, 300]⟩
abbrev S5000x256 : Shape := ⟨2, ![5000, 256]⟩
abbrev S5000x300 : Shape := ⟨2, ![5000, 300]⟩
abbrev S850000x300 : Shape := ⟨2, ![850000, 300]⟩
abbrev S1x300 : Shape := ⟨2, ![1, 300]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 71
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x300, .f32⟩
  | .hbm, ⟨3, _⟩ => ⟨S300, .f32⟩
  | .hbm, ⟨4, _⟩ => ⟨S300x2, .f32⟩
  | .hbm, ⟨5, _⟩ => ⟨S2, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x300, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x300, .f32⟩
  | .hbm, ⟨59, _⟩ => ⟨S850000x1, .f32⟩
  | .hbm, ⟨60, _⟩ => ⟨S850000x300, .f32⟩
  | .hbm, ⟨61, _⟩ => ⟨S850000x300, .f32⟩
  | .hbm, ⟨62, _⟩ => ⟨S_, .f32⟩
  | .hbm, ⟨63, _⟩ => ⟨S50000x300, .f32⟩
  | .hbm, ⟨64, _⟩ => ⟨S850000x1, .i32⟩
  | .hbm, ⟨65, _⟩ => ⟨S50000x300, .f32⟩
  | .hbm, ⟨66, _⟩ => ⟨S1x300, .f32⟩
  | .hbm, ⟨67, _⟩ => ⟨S50000x300, .f32⟩
  | .hbm, ⟨68, _⟩ => ⟨S50000x300, .f32⟩
  | .hbm, ⟨69, _⟩ => ⟨S1x2, .f32⟩
  | .hbm, ⟨70, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S256x300, .f32⟩
  | .local _ .vmem, ⟨3, _⟩ => ⟨S5000x300, .f32⟩
  | .local _ .vmem, ⟨4, _⟩ => ⟨S5000x300, .f32⟩
  | .local _ .vmem, ⟨5, _⟩ => ⟨S5000x300, .f32⟩
  | .local _ .vmem, ⟨6, _⟩ => ⟨S5000x300, .f32⟩
  | .local _ .vmem, ⟨7, _⟩ => ⟨S300x2, .f32⟩
  | .local _ .vmem, ⟨8, _⟩ => ⟨S1x2, .f32⟩
  | .local _ .vmem, ⟨9, _⟩ => ⟨S5000x2, .f32⟩
  | .local _ .vmem, ⟨10, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x300_S256x300_0_0 : ∀ a, (![0, 0] : Fin 2 → Nat) a + S256x300.size a ≤ S256x300.size a
  h_S256x300 : 0 < S256x300.numel
  inb_S5000x300_S5000x300_0_0 : ∀ a, (![0, 0] : Fin 2 → Nat) a + S5000x300.size a ≤ S5000x300.size a
  h_S5000x300 : 0 < S5000x300.numel
  bcast_S850000x1_S850000x300_0_1 : S850000x1.BroadcastsInDim S850000x300 (![0, 1] : Fin 2 → Fin S850000x300.rank)
  bcast_S_S50000x300 : S_.BroadcastsInDim S50000x300 (![] : Fin 0 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  shapeCasts_S2_S1x2 : S2.ShapeCasts S1x2
  shapeCasts_S5000x300_S5000x300 : S5000x300.ShapeCasts S5000x300
  inb_S300x2_S300x2_0_0 : ∀ a, (![0, 0] : Fin 2 → Nat) a + S300x2.size a ≤ S300x2.size a
  h_S300x2 : 0 < S300x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x300_S5000x300_1_0_0_1_n_n_wf : DotDims.WF S5000x256 S256x300 S5000x300 [1] [0] [0] [1] [] []
  gather_S50000x300_S850000x1_S850000x300_1_0_n_n_0_1_1300_wf : GatherDims.WF S50000x300 S850000x1 S850000x300 [1] [0] [] [0] [] 1 ![1, 300]
  scatter_S50000x300_S850000x1_S850000x300_1_0_0_1_wf : ScatterDims.WF S50000x300 S850000x1 S850000x300 [1] [0] [0] 1
  dot_S5000x300_S300x2_S5000x2_1_0_0_1_n_n_wf : DotDims.WF S5000x300 S300x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x300.size a ≤ S256x300.size a
  hwx0_1 : ∀ i : grid0.Coords, EltTy.bits .f32 = 32 ∨ (Rect.block (s := S256x300) S256x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x300.size a ≤ S50000x300.size a
  hwx0_2 : ∀ i : grid0.Coords, EltTy.bits .f32 = 32 ∨ (Rect.block (s := S50000x300) S5000x300.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x300.size a ≤ S50000x300.size a
  hwx1_0 : ∀ i : grid1.Coords, EltTy.bits .f32 = 32 ∨ (Rect.block (s := S50000x300) S5000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x2.size a ≤ S300x2.size a
  hwx1_1 : ∀ i : grid1.Coords, EltTy.bits .f32 = 32 ∨ (Rect.block (s := S300x2) S300x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S50000x2.size a
  hwx1_3 : ∀ i : grid1.Coords, EltTy.bits .f32 = 32 ∨ (Rect.block (s := S50000x2) S5000x2.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x300_S5000x300_1_0_0_1_n_n : DotDims S5000x256 S256x300 S5000x300 where
  lhsContracting := [1]
  rhsContracting := [0]
  lhsNonContracting := [0]
  rhsNonContracting := [1]
  lhsBatch := []
  rhsBatch := []
  wf := dot_S5000x256_S256x300_S5000x300_1_0_0_1_n_n_wf
def gather_S50000x300_S850000x1_S850000x300_1_0_n_n_0_1_1300 : GatherDims S50000x300 S850000x1 S850000x300 where
  offsetDims := [1]
  collapsedSliceDims := [0]
  operandBatchingDims := []
  startIndicesBatchingDims := []
  startIndexMap := [0]
  indexVectorDim := 1
  sliceSizes := ![1, 300]
  wf := gather_S50000x300_S850000x1_S850000x300_1_0_n_n_0_1_1300_wf
def scatter_S50000x300_S850000x1_S850000x300_1_0_0_1 : ScatterDims S50000x300 S850000x1 S850000x300 where
  updateWindowDims := [1]
  insertedWindowDims := [0]
  scatterDimsToOperandDims := [0]
  indexVectorDim := 1
  wf := scatter_S50000x300_S850000x1_S850000x300_1_0_0_1_wf
def dot_S5000x300_S300x2_S5000x2_1_0_0_1_n_n : DotDims S5000x300 S300x2 S5000x2 where
  lhsContracting := [1]
  rhsContracting := [0]
  lhsNonContracting := [0]
  rhsNonContracting := [1]
  lhsBatch := []
  rhsBatch := []
  wf := dot_S5000x300_S300x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S300x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x300 : Shape := ⟨2, ![256, 300]⟩
abbrev S300 : Shape := ⟨1, ![300]⟩
abbrev S300x2 : Shape := ⟨2, ![300, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x300 : Shape := ⟨2, ![50000, 300]⟩
abbrev S850000x300 : Shape := ⟨2, ![850000, 300]⟩
abbrev S1x300 : Shape := ⟨2, ![1, 300]⟩
abbrev S50000x2 : Shape := ⟨2, ![50000, 2]⟩
abbrev S1x2 : Shape := ⟨2, ![1, 2]⟩

abbrev nBuf : Space → Nat
  | .hbm => 76
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x300, .f32⟩
  | .hbm, ⟨3, _⟩ => ⟨S300, .f32⟩
  | .hbm, ⟨4, _⟩ => ⟨S300x2, .f32⟩
  | .hbm, ⟨5, _⟩ => ⟨S2, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x300, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x300, .f32⟩
  | .hbm, ⟨59, _⟩ => ⟨S850000x1, .f32⟩
  | .hbm, ⟨60, _⟩ => ⟨S850000x300, .f32⟩
  | .hbm, ⟨61, _⟩ => ⟨S850000x300, .f32⟩
  | .hbm, ⟨62, _⟩ => ⟨S_, .f32⟩
  | .hbm, ⟨63, _⟩ => ⟨S50000x300, .f32⟩
  | .hbm, ⟨64, _⟩ => ⟨S850000x1, .i32⟩
  | .hbm, ⟨65, _⟩ => ⟨S50000x300, .f32⟩
  | .hbm, ⟨66, _⟩ => ⟨S1x300, .f32⟩
  | .hbm, ⟨67, _⟩ => ⟨S50000x300, .f32⟩
  | .hbm, ⟨68, _⟩ => ⟨S50000x300, .f32⟩
  | .hbm, ⟨69, _⟩ => ⟨S_, .f32⟩
  | .hbm, ⟨70, _⟩ => ⟨S50000x300, .f32⟩
  | .hbm, ⟨71, _⟩ => ⟨S50000x300, .f32⟩
  | .hbm, ⟨72, _⟩ => ⟨S50000x2, .f32⟩
  | .hbm, ⟨73, _⟩ => ⟨S1x2, .f32⟩
  | .hbm, ⟨74, _⟩ => ⟨S50000x2, .f32⟩
  | .hbm, ⟨75, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x300_0_1 : S850000x1.BroadcastsInDim S850000x300 (![0, 1] : Fin 2 → Fin S850000x300.rank)
  bcast_S_S50000x300 : S_.BroadcastsInDim S50000x300 (![] : Fin 0 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x300_S50000x300_1_0_0_1_n_n_wf : DotDims.WF S50000x256 S256x300 S50000x300 [1] [0] [0] [1] [] []
  gather_S50000x300_S850000x1_S850000x300_1_0_n_n_0_1_1300_wf : GatherDims.WF S50000x300 S850000x1 S850000x300 [1] [0] [] [0] [] 1 ![1, 300]
  scatter_S50000x300_S850000x1_S850000x300_1_0_0_1_wf : ScatterDims.WF S50000x300 S850000x1 S850000x300 [1] [0] [0] 1
  dot_S50000x300_S300x2_S50000x2_1_0_0_1_n_n_wf : DotDims.WF S50000x300 S300x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x300_S50000x300_1_0_0_1_n_n : DotDims S50000x256 S256x300 S50000x300 where
  lhsContracting := [1]
  rhsContracting := [0]
  lhsNonContracting := [0]
  rhsNonContracting := [1]
  lhsBatch := []
  rhsBatch := []
  wf := dot_S50000x256_S256x300_S50000x300_1_0_0_1_n_n_wf
def gather_S50000x300_S850000x1_S850000x300_1_0_n_n_0_1_1300 : GatherDims S50000x300 S850000x1 S850000x300 where
  offsetDims := [1]
  collapsedSliceDims := [0]
  operandBatchingDims := []
  startIndicesBatchingDims := []
  startIndexMap := [0]
  indexVectorDim := 1
  sliceSizes := ![1, 300]
  wf := gather_S50000x300_S850000x1_S850000x300_1_0_n_n_0_1_1300_wf
def scatter_S50000x300_S850000x1_S850000x300_1_0_0_1 : ScatterDims S50000x300 S850000x1 S850000x300 where
  updateWindowDims := [1]
  insertedWindowDims := [0]
  scatterDimsToOperandDims := [0]
  indexVectorDim := 1
  wf := scatter_S50000x300_S850000x1_S850000x300_1_0_0_1_wf
def dot_S50000x300_S300x2_S50000x2_1_0_0_1_n_n : DotDims S50000x300 S300x2 S50000x2 where
  lhsContracting := [1]
  rhsContracting := [0]
  lhsNonContracting := [0]
  rhsNonContracting := [1]
  lhsBatch := []
  rhsBatch := []
  wf := dot_S50000x300_S300x2_S50000x2_1_0_0_1_n_n_wf

class Facts : Prop extends Facts₀ where

variable [Facts]
-- ==== Proof.Payloads.lean ====
/-
  What each kernel body stores, read at an entry, over the extended reals.

  The first body stores the product of its row block of `x` with the whole `W1`: at row `r`, column `c` of the block the
  sum over `k < 256` of `x (r, k) * W1 (k, c)` (the narrowing of both operands to bf16 is the identity on the extended
  reals, and the accumulator is the zero splat).  The second stores, at row `r`, column `c`, the sum over `k < 300` of
  `max (a (r, k)) 0 * Wf (k, c)`, plus the bias row's entry `c`.
-/
import proofs.«161905_j2448131359246_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The operand indices of the two products, axis by axis -/

theorem lhs_mm_0 (i : S5000x300.Idx) (q : dot_S5000x256_S256x300_S5000x300_1_0_0_1_n_n.contr.Idx) :
    (dot_S5000x256_S256x300_S5000x300_1_0_0_1_n_n.lhsIdx i q 0).val = (i 0).val := by
  unfold DotDims.lhsIdx
  rw [dif_neg (show ¬(0 : Fin S5000x256.rank) ∈ dot_S5000x256_S256x300_S5000x300_1_0_0_1_n_n.lhsBatch by decide), dif_pos (show (0 : Fin S5000x256.rank) ∈ dot_S5000x256_S256x300_S5000x300_1_0_0_1_n_n.lhsNonContracting by decide)]
  rfl
theorem lhs_mm_1 (i : S5000x300.Idx) (q : dot_S5000x256_S256x300_S5000x300_1_0_0_1_n_n.contr.Idx) :
    (dot_S5000x256_S256x300_S5000x300_1_0_0_1_n_n.lhsIdx i q 1).val = (q ⟨0, by decide⟩).val :=
  dot_S5000x256_S256x300_S5000x300_1_0_0_1_n_n.lhsIdx_val_of_single rfl i q
theorem rhs_mm_0 (i : S5000x300.Idx) (q : dot_S5000x256_S256x300_S5000x300_1_0_0_1_n_n.contr.Idx) :
    (dot_S5000x256_S256x300_S5000x300_1_0_0_1_n_n.rhsIdx i q 0).val = (q ⟨0, by decide⟩).val :=
  dot_S5000x256_S256x300_S5000x300_1_0_0_1_n_n.rhsIdx_val_of_single rfl i q
theorem rhs_mm_1 (i : S5000x300.Idx) (q : dot_S5000x256_S256x300_S5000x300_1_0_0_1_n_n.contr.Idx) :
    (dot_S5000x256_S256x300_S5000x300_1_0_0_1_n_n.rhsIdx i q 1).val = (i 1).val := by
  unfold DotDims.rhsIdx
  rw [dif_neg (show ¬(1 : Fin S256x300.rank) ∈ dot_S5000x256_S256x300_S5000x300_1_0_0_1_n_n.rhsBatch by decide), dif_pos (show (1 : Fin S256x300.rank) ∈ dot_S5000x256_S256x300_S5000x300_1_0_0_1_n_n.rhsNonContracting by decide)]
  rfl

theorem lhs_fc_0 (i : S5000x2.Idx) (q : dot_S5000x300_S300x2_S5000x2_1_0_0_1_n_n.contr.Idx) :
    (dot_S5000x300_S300x2_S5000x2_1_0_0_1_n_n.lhsIdx i q 0).val = (i 0).val := by
  unfold DotDims.lhsIdx
  rw [dif_neg (show ¬(0 : Fin S5000x300.rank) ∈ dot_S5000x300_S300x2_S5000x2_1_0_0_1_n_n.lhsBatch by decide), dif_pos (show (0 : Fin S5000x300.rank) ∈ dot_S5000x300_S300x2_S5000x2_1_0_0_1_n_n.lhsNonContracting by decide)]
  rfl
theorem lhs_fc_1 (i : S5000x2.Idx) (q : dot_S5000x300_S300x2_S5000x2_1_0_0_1_n_n.contr.Idx) :
    (dot_S5000x300_S300x2_S5000x2_1_0_0_1_n_n.lhsIdx i q 1).val = (q ⟨0, by decide⟩).val :=
  dot_S5000x300_S300x2_S5000x2_1_0_0_1_n_n.lhsIdx_val_of_single rfl i q
theorem rhs_fc_0 (i : S5000x2.Idx) (q : dot_S5000x300_S300x2_S5000x2_1_0_0_1_n_n.contr.Idx) :
    (dot_S5000x300_S300x2_S5000x2_1_0_0_1_n_n.rhsIdx i q 0).val = (q ⟨0, by decide⟩).val :=
  dot_S5000x300_S300x2_S5000x2_1_0_0_1_n_n.rhsIdx_val_of_single rfl i q
theorem rhs_fc_1 (i : S5000x2.Idx) (q : dot_S5000x300_S300x2_S5000x2_1_0_0_1_n_n.contr.Idx) :
    (dot_S5000x300_S300x2_S5000x2_1_0_0_1_n_n.rhsIdx i q 1).val = (i 1).val := by
  unfold DotDims.rhsIdx
  rw [dif_neg (show ¬(1 : Fin S300x2.rank) ∈ dot_S5000x300_S300x2_S5000x2_1_0_0_1_n_n.rhsBatch by decide), dif_pos (show (1 : Fin S300x2.rank) ∈ dot_S5000x300_S300x2_S5000x2_1_0_0_1_n_n.rhsNonContracting by decide)]
  rfl

/-- Row `i 0`, column `k` of a block of `x`. -/
abbrev lidx_mm (i : S5000x300.Idx) (k : Fin 256) : S5000x256.Idx := fun a => match a with
  | ⟨0, _⟩ => ⟨(i 0).val, (i 0).isLt⟩
  | ⟨1, _⟩ => ⟨k.val, k.isLt⟩
/-- Row `k`, column `i 1` of `W1`. -/
abbrev ridx_mm (i : S5000x300.Idx) (k : Fin 256) : S256x300.Idx := fun a => match a with
  | ⟨0, _⟩ => ⟨k.val, k.isLt⟩
  | ⟨1, _⟩ => ⟨(i 1).val, (i 1).isLt⟩
/-- Row `i 0`, column `k` of a block of the aggregated features. -/
abbrev lidx_fc (i : S5000x2.Idx) (k : Fin 300) : S5000x300.Idx := fun a => match a with
  | ⟨0, _⟩ => ⟨(i 0).val, (i 0).isLt⟩
  | ⟨1, _⟩ => ⟨k.val, k.isLt⟩
/-- Row `k`, column `i 1` of `Wf`. -/
abbrev ridx_fc (i : S5000x2.Idx) (k : Fin 300) : S300x2.Idx := fun a => match a with
  | ⟨0, _⟩ => ⟨k.val, k.isLt⟩
  | ⟨1, _⟩ => ⟨(i 1).val, (i 1).isLt⟩
/-- Entry `i 1` of the bias row. -/
abbrev bidx_fc (i : S5000x2.Idx) : S1x2.Idx := fun a => match a with
  | ⟨0, _⟩ => ⟨0, Nat.one_pos⟩
  | ⟨1, _⟩ => ⟨(i 1).val, (i 1).isLt⟩

/-! ## A product into the zero splat, at an entry -/

/-- The first product at an entry: the sum over the contracted axis. -/
theorem matmul_mm_apply (a : FVec Ideal S5000x256 .bf16) (b : FVec Ideal S256x300 .bf16) (i : S5000x300.Idx) :
    matmul dot_S5000x256_S256x300_S5000x300_1_0_0_1_n_n none a b (constant S5000x300 .f32 0x00000000#32) i
      = ∑ k : Fin 256, a (lidx_mm i k) * b (ridx_mm i k) := by
  show FloatOps.matmul dot_S5000x256_S256x300_S5000x300_1_0_0_1_n_n none a b (constant S5000x300 .f32 0x00000000#32) i = _
  rw [Ideal.matmul_constant_zero_apply, ← Equiv.sum_comp (contrEquiv1 dot_S5000x256_S256x300_S5000x300_1_0_0_1_n_n 256 rfl rfl).symm]
  refine Finset.sum_congr rfl fun k _ => ?_
  have hk := contrEquiv1_symm_val dot_S5000x256_S256x300_S5000x300_1_0_0_1_n_n 256 rfl rfl k
  have el : dot_S5000x256_S256x300_S5000x300_1_0_0_1_n_n.lhsIdx i ((contrEquiv1 dot_S5000x256_S256x300_S5000x300_1_0_0_1_n_n 256 rfl rfl).symm k) = lidx_mm i k := funext fun a => Fin.ext (by
    match a with
    | ⟨0, _⟩ => exact lhs_mm_0 _ _
    | ⟨1, _⟩ => exact (lhs_mm_1 _ _).trans hk)
  have er : dot_S5000x256_S256x300_S5000x300_1_0_0_1_n_n.rhsIdx i ((contrEquiv1 dot_S5000x256_S256x300_S5000x300_1_0_0_1_n_n 256 rfl rfl).symm k) = ridx_mm i k := funext fun a => Fin.ext (by
    match a with
    | ⟨0, _⟩ => exact (rhs_mm_0 _ _).trans hk
    | ⟨1, _⟩ => exact rhs_mm_1 _ _)
  rw [el, er]

/-- The second product at an entry. -/
theorem matmul_fc_apply (a : FVec Ideal S5000x300 .bf16) (b : FVec Ideal S300x2 .bf16) (i : S5000x2.Idx) :
    matmul dot_S5000x300_S300x2_S5000x2_1_0_0_1_n_n none a b (constant S5000x2 .f32 0x00000000#32) i
      = ∑ k : Fin 300, a (lidx_fc i k) * b (ridx_fc i k) := by
  show FloatOps.matmul dot_S5000x300_S300x2_S5000x2_1_0_0_1_n_n none a b (constant S5000x2 .f32 0x00000000#32) i = _
  rw [Ideal.matmul_constant_zero_apply, ← Equiv.sum_comp (contrEquiv1 dot_S5000x300_S300x2_S5000x2_1_0_0_1_n_n 300 rfl rfl).symm]
  refine Finset.sum_congr rfl fun k _ => ?_
  have hk := contrEquiv1_symm_val dot_S5000x300_S300x2_S5000x2_1_0_0_1_n_n 300 rfl rfl k
  have el : dot_S5000x300_S300x2_S5000x2_1_0_0_1_n_n.lhsIdx i ((contrEquiv1 dot_S5000x300_S300x2_S5000x2_1_0_0_1_n_n 300 rfl rfl).symm k) = lidx_fc i k := funext fun a => Fin.ext (by
    match a with
    | ⟨0, _⟩ => exact lhs_fc_0 _ _
    | ⟨1, _⟩ => exact (lhs_fc_1 _ _).trans hk)
  have er : dot_S5000x300_S300x2_S5000x2_1_0_0_1_n_n.rhsIdx i ((contrEquiv1 dot_S5000x300_S300x2_S5000x2_1_0_0_1_n_n 300 rfl rfl).symm k) = ridx_fc i k := funext fun a => Fin.ext (by
    match a with
    | ⟨0, _⟩ => exact (rhs_fc_0 _ _).trans hk
    | ⟨1, _⟩ => exact rhs_fc_1 _ _)
  rw [el, er]

/-! ## The two bodies' stored values -/

/-- The first body's stored block at an entry: `∑ k, x (r, k) * W1 (k, c)`. -/
theorem k0_pay1_apply (x : Vec Ideal S5000x256 .f32) (w : Vec Ideal S256x300 .f32) (i : S5000x300.Idx) :
    k0_pay1 (F := Ideal) x w i = ∑ k : Fin 256, x (lidx_mm i k) * w (ridx_mm i k) := by
  unfold k0_pay1
  exact matmul_mm_apply _ _ i

/-- The bias row broadcast down the block, at an entry. -/
theorem bias_apply (b : Vec Ideal S1x2 .f32) (i : S5000x2.Idx) :
    broadcastTo S5000x2 (shapeCast S1x2 b shapeCasts_S1x2_S1x2) broadcasts_S1x2_S5000x2 i = b (bidx_fc i) := by
  rw [shapeCast_self]
  exact broadcastTo_apply b broadcasts_S1x2_S5000x2 i (bidx_fc i) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

/-- The second body's stored block at an entry: `(∑ k, max (a (r, k)) 0 * Wf (k, c)) + bias c`. -/
theorem k1_pay1_apply (a : Vec Ideal S5000x300 .f32) (w : Vec Ideal S300x2 .f32) (b : Vec Ideal S1x2 .f32) (i : S5000x2.Idx) :
    k1_pay1 (F := Ideal) a w b i
      = (∑ k : Fin 300, max (a (lidx_fc i k)) (FloatOps.ofBits (F := Ideal) .f32 0x00000000#32) * w (ridx_fc i k)) + b (bidx_fc i) := by
  unfold k1_pay1
  show FloatOps.addf (F := Ideal) _ _ = _
  rw [Ideal.addf_def, matmul_fc_apply, bias_apply, shapeCast_self]
  rfl

end Cert.KernelIdeal.Payload

end
-- ==== Proof.Region0Value.lean ====
/-
  The first pallas_call's result array as one function of its two operand arrays.

  The grid has ten points; point `t` reads rows `5000 t … 5000 t + 4999` of `x` and the whole of `W1`, and writes the same
  rows of the result.  Each point's block is the restriction of ONE whole-array function — entry `(r, c)` is the sum over
  `k < 256` of `x (r, k) * W1 (k, c)` — and the ten row blocks tile the array, so the array ends holding that function.
-/
import proofs.«161905_j2448131359246_1_alg».proof.Proof.Gen.KernelIdeal.Frame
import proofs.«161905_j2448131359246_1_alg».proof.Proof.Payloads
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

-- the TensorCore's buffer contents when the region is entered: a parameter
variable (V : (c : Dev nD) → (b : Ref sig .tc) → Buf (Elt Ideal) ((c : Thread nD τ).loc b))

/-- Row `i 0`, column `k` of `x`. -/
abbrev lidxA (i : S50000x300.Idx) (k : Fin 256) : S50000x256.Idx := fun a => match a with
  | ⟨0, _⟩ => ⟨(i 0).val, (i 0).isLt⟩
  | ⟨1, _⟩ => ⟨k.val, k.isLt⟩
/-- Row `k`, column `i 1` of `W1`. -/
abbrev ridxA (i : S50000x300.Idx) (k : Fin 256) : S256x300.Idx := fun a => match a with
  | ⟨0, _⟩ => ⟨k.val, k.isLt⟩
  | ⟨1, _⟩ => ⟨(i 1).val, (i 1).isLt⟩

/-- The product `x · W1` over the extended reals, entry by entry. -/
def mmOut (x : (⟨S50000x256, .f32⟩ : BufTy).Contents (Elt Ideal)) (w : (⟨S256x300, .f32⟩ : BufTy).Contents (Elt Ideal)) :
    (⟨S50000x300, .f32⟩ : BufTy).Contents (Elt Ideal) :=
  fun i => ∑ k : Fin 256, x (lidxA i k) * w (ridxA i k)

theorem hz0 : (![0, 0] : Fin 2 → Nat) = fun _ => 0 := funext fun a => by fin_cases a <;> rfl

/-- The printed index maps over the grid: the row block of `x` and of the result is the point's own, `W1` is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `mmOut` of the two operand arrays as the region finds them. -/
theorem flushed0_eq (c : Dev nD) (t : Fin cfg0.N) :
    (dat0 V c).flushed 2 t = ((cfg0.win 2).blk t).view.read (Elt Ideal) (mmOut (V c main_arg0) (V c main_arg2)) := by
  show (cfg0.win 2).cut (grid0.coords t) ((dat0 V c).after 2 t) = _
  rw [after0_2]
  unfold out0_2
  rw [View.canon_unit_zero hz0]
  simp only [View.ld_unit_zero (S := S5000x256) hz0, View.ld_unit_zero (S := S256x300) hz0]
  obtain ⟨e0, e1, e2, e3, e4, e5⟩ := idx_facts0 t
  funext j
  refine (Payload.k0_pay1_apply (iblk0 V c 0 t) (iblk0 V c 1 t) j).trans ?_
  show _ = mmOut (V c main_arg0) (V c main_arg2) (((cfg0.win 2).blk t).view.emb j)
  unfold mmOut
  refine Finset.sum_congr rfl fun k _ => ?_
  have hj0 : (j 0).val < 5000 := (j 0).isLt
  have hj1 : (j 1).val < 300 := (j 1).isLt
  have hk : k.val < 256 := k.isLt
  have h0 : ((cfg0.win 0).blk t).view.emb (Payload.lidx_mm j k) = lidxA (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (Payload.ridx_mm j k) = ridxA (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 300 + 1 * (j 1).val = win0_2.index t (1 : Fin 2) * 300 + 1 * (j 1).val; omega
  refine congrArg₂ (· * ·) ?_ ?_
  · show V c main_arg0 (((cfg0.win 0).blk t).view.emb (Payload.lidx_mm j k)) = _
    rw [h0]
  · show V c main_arg2 (((cfg0.win 1).blk t).view.emb (Payload.ridx_mm j k)) = _
    rw [h1]

/-- An index of the result array is in point `t`'s block iff each coordinate is in the block's range on its axis. -/
theorem mem_blk0 (t : Fin cfg0.N) (i : S50000x300.Idx) :
    i ∈ ((cfg0.win 2).blk t).view.set ↔ ∀ a : Fin 2, win0_2.index t a * S5000x300.size a ≤ (i a).val ∧ (i a).val < win0_2.index t a * S5000x300.size a + S5000x300.size a := by
  show i ∈ ((View.whole main_v32).slice (win0_2.rect t)).set ↔ _
  rw [View.set_slice_whole, Rect.mem_set_unit]
  exact Iff.rfl

/-- Every entry of the result array is in some point's block: row `r` is in the block of point `r / 5000`. -/
theorem cover0 (i : S50000x300.Idx) : ∃ t : Fin cfg0.N, (cfg0.win 2).flush t = true ∧ i ∈ ((cfg0.win 2).blk t).view.set := by
  have hi0 : (i 0).val < 50000 := (i 0).isLt
  have hi1 : (i 1).val < 300 := (i 1).isLt
  have hN : cfg0.N = 10 := N_0
  let t : Fin cfg0.N := ⟨(i 0).val / 5000, by rw [hN]; omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 300 ≤ (i 1).val ∧ (i 1).val < win0_2.index t (1 : Fin 2) * 300 + 300; omega

/-- The result array after the region: `x · W1` of the operand arrays as the region finds them. -/
theorem final0 (c : Dev nD) : (dat0 V c).arrAt 2 cfg0.N = mmOut (V c main_arg0) (V c main_arg2) :=
  (dat0 V c).arrAt_eq_of_cover 2 (mmOut (V c main_arg0) (V c main_arg2)) (fun t _ => flushed0_eq V c t) cover0

end Cert.KernelIdeal.RegionValue

end
-- ==== Proof.Region1Value.lean ====
/-
  The second pallas_call's result array as one function of its three operand arrays.

  Point `t` of its ten reads rows `5000 t … 5000 t + 4999` of the aggregated features, the whole of `Wf` and the bias row, and
  writes the same rows of the result.  Each block is the restriction of ONE whole-array function — entry `(r, c)` is the sum
  over `k < 300` of `max (a (r, k)) 0 * Wf (k, c)`, plus the bias entry `c` — and the ten row blocks tile the array.
-/
import proofs.«161905_j2448131359246_1_alg».proof.Proof.Gen.KernelIdeal.Frame
import proofs.«161905_j2448131359246_1_alg».proof.Proof.Payloads
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

-- the TensorCore's buffer contents when the region is entered: a parameter
variable (V : (c : Dev nD) → (b : Ref sig .tc) → Buf (Elt Ideal) ((c : Thread nD τ).loc b))

/-- Row `i 0`, column `k` of the aggregated features. -/
abbrev lidxB (i : S50000x2.Idx) (k : Fin 300) : S50000x300.Idx := fun a => match a with
  | ⟨0, _⟩ => ⟨(i 0).val, (i 0).isLt⟩
  | ⟨1, _⟩ => ⟨k.val, k.isLt⟩
/-- Row `k`, column `i 1` of `Wf`. -/
abbrev ridxB (i : S50000x2.Idx) (k : Fin 300) : S300x2.Idx := fun a => match a with
  | ⟨0, _⟩ => ⟨k.val, k.isLt⟩
  | ⟨1, _⟩ => ⟨(i 1).val, (i 1).isLt⟩
/-- Entry `i 1` of the bias row. -/
abbrev bidxB (i : S50000x2.Idx) : S1x2.Idx := fun a => match a with
  | ⟨0, _⟩ => ⟨0, Nat.one_pos⟩
  | ⟨1, _⟩ => ⟨(i 1).val, (i 1).isLt⟩

/-- `max a 0 · Wf + bias` over the extended reals, entry by entry. -/
def fcOut (a : (⟨S50000x300, .f32⟩ : BufTy).Contents (Elt Ideal)) (w : (⟨S300x2, .f32⟩ : BufTy).Contents (Elt Ideal))
    (b : (⟨S1x2, .f32⟩ : BufTy).Contents (Elt Ideal)) : (⟨S50000x2, .f32⟩ : BufTy).Contents (Elt Ideal) :=
  fun i => (∑ k : Fin 300, max (a (lidxB i k)) (FloatOps.ofBits (F := Ideal) .f32 0x00000000#32) * w (ridxB i k)) + b (bidxB i)

theorem hz1 : (![0, 0] : Fin 2 → Nat) = fun _ => 0 := funext fun a => by fin_cases a <;> rfl

/-- The printed index maps over the grid: the row block of the features and of the result is the point's own, `Wf` and the
    bias row are one block each. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `fcOut` of the three operand arrays as the region finds them. -/
theorem flushed1_eq (c : Dev nD) (t : Fin cfg1.N) :
    (dat1 V c).flushed 3 t = ((cfg1.win 3).blk t).view.read (Elt Ideal) (fcOut (V c main_v48) (V c main_arg4) (V c main_v49)) := by
  show (cfg1.win 3).cut (grid1.coords t) ((dat1 V c).after 3 t) = _
  rw [after1_3]
  unfold out1_3
  rw [View.canon_unit_zero hz1]
  simp only [View.ld_unit_zero (S := S5000x300) hz1, View.ld_unit_zero (S := S300x2) hz1, View.ld_unit_zero (S := S1x2) hz1]
  obtain ⟨e0, e1, e2, e3, e4, e5, e6, e7⟩ := idx_facts1 t
  funext j
  refine (Payload.k1_pay1_apply (iblk1 V c 0 t) (iblk1 V c 1 t) (iblk1 V c 2 t) j).trans ?_
  show _ = fcOut (V c main_v48) (V c main_arg4) (V c main_v49) (((cfg1.win 3).blk t).view.emb j)
  unfold fcOut
  have hj0 : (j 0).val < 5000 := (j 0).isLt
  have hj1 : (j 1).val < 2 := (j 1).isLt
  have h0 : ∀ k : Fin 300, ((cfg1.win 0).blk t).view.emb (Payload.lidx_fc j k) = lidxB (((cfg1.win 3).blk t).view.emb j) k := fun k => by
    have hk : k.val < 300 := k.isLt
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 300 + 1 * k.val = k.val; omega
  have h1 : ∀ k : Fin 300, ((cfg1.win 1).blk t).view.emb (Payload.ridx_fc j k) = ridxB (((cfg1.win 3).blk t).view.emb j) k := fun k => by
    have hk : k.val < 300 := k.isLt
    funext a; apply Fin.ext
    match a with
    | ⟨0, _⟩ => show win1_1.index t (0 : Fin 2) * 300 + 1 * k.val = k.val; omega
    | ⟨1, _⟩ => show win1_1.index t (1 : Fin 2) * 2 + 1 * (j 1).val = win1_3.index t (1 : Fin 2) * 2 + 1 * (j 1).val; omega
  have h2 : ((cfg1.win 2).blk t).view.emb (Payload.bidx_fc j) = bidxB (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 2 + 1 * (j 1).val = win1_3.index t (1 : Fin 2) * 2 + 1 * (j 1).val; omega
  refine congrArg₂ (· + ·) (Finset.sum_congr rfl fun k _ => ?_) ?_
  · refine congrArg₂ (· * ·) (congrArg₂ max ?_ rfl) ?_
    · show V c main_v48 (((cfg1.win 0).blk t).view.emb (Payload.lidx_fc j k)) = _
      rw [h0 k]
    · show V c main_arg4 (((cfg1.win 1).blk t).view.emb (Payload.ridx_fc j k)) = _
      rw [h1 k]
  · show V c main_v49 (((cfg1.win 2).blk t).view.emb (Payload.bidx_fc j)) = _
    rw [h2]

/-- An index of the result array is in point `t`'s block iff each coordinate is in the block's range on its axis. -/
theorem mem_blk1 (t : Fin cfg1.N) (i : S50000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v50).slice (win1_3.rect t)).set ↔ _
  rw [View.set_slice_whole, Rect.mem_set_unit]
  exact Iff.rfl

/-- Every entry of the result array is in some point's block: row `r` is in the block of point `r / 5000`. -/
theorem cover1 (i : S50000x2.Idx) : ∃ t : Fin cfg1.N, (cfg1.win 3).flush t = true ∧ i ∈ ((cfg1.win 3).blk t).view.set := by
  have hi0 : (i 0).val < 50000 := (i 0).isLt
  have hi1 : (i 1).val < 2 := (i 1).isLt
  have hN : cfg1.N = 10 := N_1
  let t : Fin cfg1.N := ⟨(i 0).val / 5000, by rw [hN]; omega⟩
  obtain ⟨e0, e1, e2, e3, e4, e5, e6, e7⟩ := idx_facts1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 2 ≤ (i 1).val ∧ (i 1).val < win1_3.index t (1 : Fin 2) * 2 + 2; omega

/-- The result array after the region: `max a 0 · Wf + bias` of the operand arrays as the region finds them. -/
theorem final1 (c : Dev nD) : (dat1 V c).arrAt 3 cfg1.N = fcOut (V c main_v48) (V c main_arg4) (V c main_v49) :=
  (dat1 V c).arrAt_eq_of_cover 3 (fcOut (V c main_v48) (V c main_arg4) (V c main_v49)) (fun t _ => flushed1_eq V c t) cover1

end Cert.KernelIdeal.RegionValue

end
-- ==== Proof.RefChain.lean ====
/-
  The reference's stages regrouped around the two matrix products.

  Between the first product `h = x · W1` and the second, the reference gathers rows of `h` by the edge sources, scales them
  by the edge norms, scatter-adds them by the edge targets and adds `b1`: that whole stage is ONE function `midL` of `h`,
  the two index vectors, the norms and `b1`, never opened here.  After it come `max · 0`, the product with `Wf` and the bias,
  read entry by entry over the extended reals (`fcR_apply`).
-/
import proofs.«161905_j2448131359246_1_alg».proof.Proof.RefRead

noncomputable section

namespace Cert.ReferenceIdeal.Chain

open Cert.ReferenceIdeal Cert.ReferenceIdeal.Gen Cert.ReferenceIdeal.ReadP Idealize.ShloMosaic

section AnyFloat
variable {F : FTy → Type} [FloatOps F]

/-- The aggregation stage as one function of its leaves: the gathered rows of `h` scaled by the norms, summed into their
    target rows, plus `b1` on every row. -/
def midL (h : (⟨S50000x300, .f32⟩ : BufTy).Contents (Elt F)) (src dst : (⟨S850000, .i32⟩ : BufTy).Contents (Elt F))
    (nrm : (⟨S850000, .f32⟩ : BufTy).Contents (Elt F)) (b1 : (⟨S300, .f32⟩ : BufTy).Contents (Elt F)) :
    (⟨S50000x300, .f32⟩ : BufTy).Contents (Elt F) :=
  addf (Host.scatterAdd scatter_S50000x300_S850000x1_S850000x300_1_0_0_1
      (broadcastInDim S50000x300 ![] bcast_S_S50000x300 (constant S_ .f32 0x00000000#32))
      (broadcastInDim S850000x1 ![0] bcast_S850000_S850000x1_0 dst)
      (mulf (Host.gather gather_S50000x300_S850000x1_S850000x300_1_0_n_n_0_1_1300 h
          (broadcastInDim S850000x1 ![0] bcast_S850000_S850000x1_0
            (select (cmpi .slt src (broadcastInDim S850000 ![] bcast_S_S850000 (constantI S_ 32 0#32)))
              (addi src (broadcastInDim S850000 ![] bcast_S_S850000 (constantI S_ 32 50000#32))) src)))
        (broadcastInDim S850000x300 ![0, 1] bcast_S850000x1_S850000x300_0_1
          (broadcastInDim S850000x1 ![0] bcast_S850000_S850000x1_0 nrm))))
    (broadcastInDim S50000x300 ![0, 1] bcast_S1x300_S50000x300_0_1 (broadcastInDim S1x300 ![1] bcast_S300_S1x300_1 b1))

/-- The reference's aggregated features are `midL` of its first product, its index vectors, its norms and `b1`. -/
theorem val_main_v48_eq_midL (x0 : (⟨S50000x256, .f32⟩ : BufTy).Contents (Elt F)) (x1 : (⟨S2x800000, .i32⟩ : BufTy).Contents (Elt F))
    (x2 : (⟨S256x300, .f32⟩ : BufTy).Contents (Elt F)) (x3 : (⟨S300, .f32⟩ : BufTy).Contents (Elt F)) :
    val_main_v48 (F := F) x0 x1 x2 x3
      = midL (val_main_v32 (F := F) x0 x2) (val_main_v3 (F := F) x1) (val_main_v6 (F := F) x1) (val_main_v31 (F := F) x1) x3 := by
  unfold val_main_v48 val_main_v45 val_main_v43 val_main_cst_9 val_main_v44 val_main_v42 val_main_v39 val_main_v38 val_main_v37
    val_main_v34 val_main_v33 val_main_c_7 val_main_v36 val_main_v35 val_main_c_8 val_main_v41 val_main_v40 val_main_v47 val_main_v46 midL
  rfl

/-- The last stage as one function of the aggregated features, `Wf` and `bf`. -/
def fcR (a : (⟨S50000x300, .f32⟩ : BufTy).Contents (Elt F)) (w : (⟨S300x2, .f32⟩ : BufTy).Contents (Elt F))
    (b : (⟨S2, .f32⟩ : BufTy).Contents (Elt F)) : (⟨S50000x2, .f32⟩ : BufTy).Contents (Elt F) :=
  addf (Host.dotGeneral dot_S50000x300_S300x2_S50000x2_1_0_0_1_n_n none (maximumf a (val_main_call1_v0 (F := F))) w) (val_main_v52 (F := F) b)

/-- The reference's result is `fcR` of its aggregated features. -/
theorem val_main_v53_eq_fcR (x0 : (⟨S50000x256, .f32⟩ : BufTy).Contents (Elt F)) (x1 : (⟨S2x800000, .i32⟩ : BufTy).Contents (Elt F))
    (x2 : (⟨S256x300, .f32⟩ : BufTy).Contents (Elt F)) (x3 : (⟨S300, .f32⟩ : BufTy).Contents (Elt F))
    (x4 : (⟨S300x2, .f32⟩ : BufTy).Contents (Elt F)) (x5 : (⟨S2, .f32⟩ : BufTy).Contents (Elt F)) :
    val_main_v53 (F := F) x0 x1 x2 x3 x4 x5 = fcR (val_main_v48 (F := F) x0 x1 x2 x3) x4 x5 := by
  unfold val_main_v53 val_main_v50 val_main_v49 fcR
  rfl

end AnyFloat

/-- The second product on the host at an entry, over the extended reals: the sum over the contracted axis. -/
theorem dot_fc_apply (y : (⟨S50000x300, .f32⟩ : BufTy).Contents (Elt Ideal)) (w : (⟨S300x2, .f32⟩ : BufTy).Contents (Elt Ideal)) (i : S50000x2.Idx) :
    Host.dotGeneral (F := Ideal) (φ₁ := .f32) (φ₂ := .f32) dot_S50000x300_S300x2_S50000x2_1_0_0_1_n_n none y w i = ∑ k : Fin 300, y (lidx_main_v50 i k) * w (ridx_main_v50 i k) := by
  simp only [Host.dotGeneral]
  rw [Ideal.dotGeneral_apply, ← Equiv.sum_comp (ValueIdx.contrEquiv1 dot_S50000x300_S300x2_S50000x2_1_0_0_1_n_n 300 rfl rfl).symm]
  refine Finset.sum_congr rfl fun k _ => ?_
  have hk := ValueIdx.contrEquiv1_symm_val dot_S50000x300_S300x2_S50000x2_1_0_0_1_n_n 300 rfl rfl k
  have el : dot_S50000x300_S300x2_S50000x2_1_0_0_1_n_n.lhsIdx i ((ValueIdx.contrEquiv1 dot_S50000x300_S300x2_S50000x2_1_0_0_1_n_n 300 rfl rfl).symm k) = lidx_main_v50 i k := funext fun a => Fin.ext (by
    match a with
    | ⟨0, _⟩ => exact lhs_main_v50_0 _ _
    | ⟨1, _⟩ => exact (lhs_main_v50_1 _ _).trans hk)
  have er : dot_S50000x300_S300x2_S50000x2_1_0_0_1_n_n.rhsIdx i ((ValueIdx.contrEquiv1 dot_S50000x300_S300x2_S50000x2_1_0_0_1_n_n 300 rfl rfl).symm k) = ridx_main_v50 i k := funext fun a => Fin.ext (by
    match a with
    | ⟨0, _⟩ => exact (rhs_main_v50_0 _ _).trans hk
    | ⟨1, _⟩ => exact rhs_main_v50_1 _ _)
  rw [el, er]

/-- The last stage at an entry, over the extended reals: `(∑ k, max (a (r, k)) 0 * Wf (k, c)) + bf c`. -/
theorem fcR_apply (a : (⟨S50000x300, .f32⟩ : BufTy).Contents (Elt Ideal)) (w : (⟨S300x2, .f32⟩ : BufTy).Contents (Elt Ideal))
    (b : (⟨S2, .f32⟩ : BufTy).Contents (Elt Ideal)) (i : S50000x2.Idx) :
    fcR (F := Ideal) a w b i
      = (∑ k : Fin 300, max (a (lidx_main_v50 i k)) (FloatOps.ofBits (F := Ideal) .f32 0x00000000#32) * w (ridx_main_v50 i k))
        + b (idx_main_v51 (idx_main_v52 i)) := by
  unfold fcR
  show FloatOps.addf (F := Ideal) _ _ = _
  rw [Ideal.addf_def, dot_fc_apply, val_main_v52_apply, val_main_v51_apply]
  refine congrArg₂ (· + ·) (Finset.sum_congr rfl fun k _ => ?_) rfl
  refine congrArg₂ (· * ·) ?_ rfl
  show FloatOps.maximumf (F := Ideal) (a (lidx_main_v50 i k)) (val_main_call1_v0 (F := Ideal) (lidx_main_v50 i k)) = _
  rw [Ideal.maximumf_def, val_main_call1_v0_apply, val_main_call1_cst_apply]

end Cert.ReferenceIdeal.Chain

end
-- ==== Proof.HostChain.lean ====
/-
  The kernel program's host stretches, read at the buffers its two pallas_calls and its later stretches use.

  Before the first pallas_call the program builds, from `edge_index` alone, the source and target vectors (the edges'
  endpoints followed by one self loop per node) and the per-edge norms; none of its three stretches writes an argument.
  Between the two pallas_calls it gathers rows of the first result by the sources, scales them by the norms, scatter-adds
  them by the targets and adds `b1` — the one function `midL` of those leaves — and reshapes `bf` to a row.  Every fact
  here is stated for ANY contents at the stretch's entry, so that the folds are never opened at the launch memory.
-/
import proofs.«161905_j2448131359246_1_alg».proof.Proof.KernelRun
import proofs.«161905_j2448131359246_1_alg».proof.Proof.Region0Value
import proofs.«161905_j2448131359246_1_alg».proof.Proof.Region1Value
import proofs.«161905_j2448131359246_1_alg».proof.Proof.RefChain

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

section AnyFloat
variable {F : FTy → Type} [FloatOps F]

/-! ## The three stretches before the first pallas_call -/

/-- The source vector: the edges' first endpoints, then the nodes themselves. -/
theorem pre_v3 (W : Valuation τ sig (Elt F)) :
    after hostOps0_2 (after hostOps0_1 (after hostOps0 W)) (Proc.devRef .tc main_v3)
      = Cert.ReferenceIdeal.ReadP.val_main_v3 (F := F) (W (Proc.devRef .tc main_arg1)) := by
  dsimp only [hostOps0, hostOps0_1, hostOps0_2]
  after_results
  rfl

/-- The target vector: the edges' second endpoints, then the nodes themselves. -/
theorem pre_v6 (W : Valuation τ sig (Elt F)) :
    after hostOps0_2 (after hostOps0_1 (after hostOps0 W)) (Proc.devRef .tc main_v6)
      = Cert.ReferenceIdeal.ReadP.val_main_v6 (F := F) (W (Proc.devRef .tc main_arg1)) := by
  dsimp only [hostOps0, hostOps0_1, hostOps0_2]
  after_results
  rfl

set_option maxHeartbeats 4000000 in
/-- The per-edge norms: the inverse square roots of the two endpoints' degrees, multiplied. -/
theorem pre_v31 (W : Valuation τ sig (Elt F)) :
    after hostOps0_2 (after hostOps0_1 (after hostOps0 W)) (Proc.devRef .tc main_v31)
      = Cert.ReferenceIdeal.ReadP.val_main_v31 (F := F) (W (Proc.devRef .tc main_arg1)) := by
  dsimp only [hostOps0, hostOps0_1, hostOps0_2]
  after_results_simp
  try simp only [TRef.ofBuf, TRef.toBuf, cast_eq]
  rfl

/-- No operation of the three stretches writes an argument. -/
theorem pre_arg0 (W : Valuation τ sig (Elt F)) :
    after hostOps0_2 (after hostOps0_1 (after hostOps0 W)) (Proc.devRef .tc main_arg0) = W (Proc.devRef .tc main_arg0) := by
  dsimp only [hostOps0, hostOps0_1, hostOps0_2]
  after_results
theorem pre_arg2 (W : Valuation τ sig (Elt F)) :
    after hostOps0_2 (after hostOps0_1 (after hostOps0 W)) (Proc.devRef .tc main_arg2) = W (Proc.devRef .tc main_arg2) := by
  dsimp only [hostOps0, hostOps0_1, hostOps0_2]
  after_results
theorem pre_arg3 (W : Valuation τ sig (Elt F)) :
    after hostOps0_2 (after hostOps0_1 (after hostOps0 W)) (Proc.devRef .tc main_arg3) = W (Proc.devRef .tc main_arg3) := by
  dsimp only [hostOps0, hostOps0_1, hostOps0_2]
  after_results
theorem pre_arg4 (W : Valuation τ sig (Elt F)) :
    after hostOps0_2 (after hostOps0_1 (after hostOps0 W)) (Proc.devRef .tc main_arg4) = W (Proc.devRef .tc main_arg4) := by
  dsimp only [hostOps0, hostOps0_1, hostOps0_2]
  after_results
theorem pre_arg5 (W : Valuation τ sig (Elt F)) :
    after hostOps0_2 (after hostOps0_1 (after hostOps0 W)) (Proc.devRef .tc main_arg5) = W (Proc.devRef .tc main_arg5) := by
  dsimp only [hostOps0, hostOps0_1, hostOps0_2]
  after_results

/-! ## The stretch between the two pallas_calls -/

set_option maxHeartbeats 4000000 in
/-- The aggregated features: `midL` of the first result, the two index vectors, the norms and `b1`, as the stretch finds them. -/
theorem mid_v48 (W : Valuation τ sig (Elt F)) :
    after hostOps1 W (Proc.devRef .tc main_v48)
      = Cert.ReferenceIdeal.Chain.midL (F := F) (W (Proc.devRef .tc main_v32)) (W (Proc.devRef .tc main_v3)) (W (Proc.devRef .tc main_v6))
          (W (Proc.devRef .tc main_v31)) (W (Proc.devRef .tc main_arg3)) := by
  dsimp only [hostOps1]
  after_results_simp
  rfl

/-- The bias as a row. -/
theorem mid_v49 (W : Valuation τ sig (Elt F)) :
    after hostOps1 W (Proc.devRef .tc main_v49) = shapeCast S1x2 (W (Proc.devRef .tc main_arg5)) shapeCasts_S2_S1x2 := by
  dsimp only [hostOps1]
  after_results
  rfl

/-- The stretch does not write `Wf`. -/
theorem mid_arg4 (W : Valuation τ sig (Elt F)) :
    after hostOps1 W (Proc.devRef .tc main_arg4) = W (Proc.devRef .tc main_arg4) := by
  dsimp only [hostOps1]
  after_results

end AnyFloat

/-! ## The run's boundary contents, at the extended reals -/

variable (m : (ℓ : Loc nD τ sig) → Buf (Elt Ideal) ℓ) (ρ : Dev nD → PrngReg)

/-- The first pallas_call leaves `x · W1` in its result array. -/
theorem W4_v32 (c : Dev nD) : W4 m ρ c (Proc.devRef .tc main_v32)
    = RegionValue.mmOut (m ((c : Thread nD τ).loc main_arg0)) (m ((c : Thread nD τ).loc main_arg2)) := by
  refine (W4_arr m ρ c 2).trans ((RegionValue.final0 (V3 m ρ) c).trans ?_)
  show RegionValue.mmOut (after hostOps0_2 (after hostOps0_1 (after hostOps0 (W0 m ρ c))) (Proc.devRef .tc main_arg0))
      (after hostOps0_2 (after hostOps0_1 (after hostOps0 (W0 m ρ c))) (Proc.devRef .tc main_arg2)) = _
  rw [pre_arg0, pre_arg2]

/-- It leaves every other buffer as the stretches before it left them. -/
theorem W4_v3 (c : Dev nD) : W4 m ρ c (Proc.devRef .tc main_v3) = Cert.ReferenceIdeal.ReadP.val_main_v3 (F := Ideal) (m ((c : Thread nD τ).loc main_arg1)) :=
  (W4_of_ne m ρ c main_v3 (by decide)).trans (pre_v3 (W0 m ρ c))
theorem W4_v6 (c : Dev nD) : W4 m ρ c (Proc.devRef .tc main_v6) = Cert.ReferenceIdeal.ReadP.val_main_v6 (F := Ideal) (m ((c : Thread nD τ).loc main_arg1)) :=
  (W4_of_ne m ρ c main_v6 (by decide)).trans (pre_v6 (W0 m ρ c))
theorem W4_v31 (c : Dev nD) : W4 m ρ c (Proc.devRef .tc main_v31) = Cert.ReferenceIdeal.ReadP.val_main_v31 (F := Ideal) (m ((c : Thread nD τ).loc main_arg1)) :=
  (W4_of_ne m ρ c main_v31 (by decide)).trans (pre_v31 (W0 m ρ c))
theorem W4_arg3 (c : Dev nD) : W4 m ρ c (Proc.devRef .tc main_arg3) = m ((c : Thread nD τ).loc main_arg3) :=
  (W4_of_ne m ρ c main_arg3 (by decide)).trans (pre_arg3 (W0 m ρ c))
theorem W4_arg4 (c : Dev nD) : W4 m ρ c (Proc.devRef .tc main_arg4) = m ((c : Thread nD τ).loc main_arg4) :=
  (W4_of_ne m ρ c main_arg4 (by decide)).trans (pre_arg4 (W0 m ρ c))
theorem W4_arg5 (c : Dev nD) : W4 m ρ c (Proc.devRef .tc main_arg5) = m ((c : Thread nD τ).loc main_arg5) :=
  (W4_of_ne m ρ c main_arg5 (by decide)).trans (pre_arg5 (W0 m ρ c))

/-- What the second pallas_call finds in its three operand arrays. -/
theorem V5_v48 (c : Dev nD) : V5 m ρ c main_v48
    = Cert.ReferenceIdeal.Chain.midL (F := Ideal) (RegionValue.mmOut (m ((c : Thread nD τ).loc main_arg0)) (m ((c : Thread nD τ).loc main_arg2)))
        (Cert.ReferenceIdeal.ReadP.val_main_v3 (F := Ideal) (m ((c : Thread nD τ).loc main_arg1))) (Cert.ReferenceIdeal.ReadP.val_main_v6 (F := Ideal) (m ((c : Thread nD τ).loc main_arg1)))
        (Cert.ReferenceIdeal.ReadP.val_main_v31 (F := Ideal) (m ((c : Thread nD τ).loc main_arg1))) (m ((c : Thread nD τ).loc main_arg3)) := by
  show after hostOps1 (W4 m ρ c) (Proc.devRef .tc main_v48) = _
  rw [mid_v48, W4_v32, W4_v3, W4_v6, W4_v31, W4_arg3]
theorem V5_arg4 (c : Dev nD) : V5 m ρ c main_arg4 = m ((c : Thread nD τ).loc main_arg4) := by
  show after hostOps1 (W4 m ρ c) (Proc.devRef .tc main_arg4) = _
  rw [mid_arg4, W4_arg4]
theorem V5_v49 (c : Dev nD) : V5 m ρ c main_v49 = shapeCast S1x2 (m ((c : Thread nD τ).loc main_arg5)) shapeCasts_S2_S1x2 := by
  show after hostOps1 (W4 m ρ c) (Proc.devRef .tc main_v49) = _
  rw [mid_v49, W4_arg5]

/-- THE RESULT ARRAY after the run: the last stage of the aggregated features, `Wf` and the bias row, the aggregated
    features `midL` of `x · W1`. -/
theorem result_eq (c : Dev nD) : W6 m ρ c (Proc.devRef .tc main_v50)
    = RegionValue.fcOut
        (Cert.ReferenceIdeal.Chain.midL (F := Ideal) (RegionValue.mmOut (m ((c : Thread nD τ).loc main_arg0)) (m ((c : Thread nD τ).loc main_arg2)))
          (Cert.ReferenceIdeal.ReadP.val_main_v3 (F := Ideal) (m ((c : Thread nD τ).loc main_arg1))) (Cert.ReferenceIdeal.ReadP.val_main_v6 (F := Ideal) (m ((c : Thread nD τ).loc main_arg1)))
          (Cert.ReferenceIdeal.ReadP.val_main_v31 (F := Ideal) (m ((c : Thread nD τ).loc main_arg1))) (m ((c : Thread nD τ).loc main_arg3)))
        (m ((c : Thread nD τ).loc main_arg4))
        (shapeCast S1x2 (m ((c : Thread nD τ).loc main_arg5)) shapeCasts_S2_S1x2) := by
  refine (W6_arr m ρ c 3).trans ((RegionValue.final1 (V5 m ρ) c).trans ?_)
  rw [V5_v48, V5_arg4, V5_v49]

end Cert.KernelIdeal.HostChain

end
-- ==== Proof.Bridge.lean ====
/-
  The two sides' whole-array functions are the same functions.

  The kernel side's `x · W1` (read off the first pallas_call's blocks) is the reference's first product, entry by entry
  the same sum over `k < 256`.  The kernel side's last stage (read off the second pallas_call's blocks, the bias taken
  from the row `bf` was reshaped to) is the reference's last stage: entry `(r, c)` of both is
  `(∑ k < 300, max (a (r, k)) 0 * Wf (k, c)) + bf c`.  No law of the extended reals is needed: the two sides are the same
  sums of the same products.
-/
import proofs.«161905_j2448131359246_1_alg».proof.Proof.HostChain

noncomputable section

namespace Cert.Proof.Bridge

open Idealize.ShloMosaic

/-- The product read off the first pallas_call's blocks is the reference's first product. -/
theorem mmOut_eq (x0 : (⟨Cert.ReferenceIdeal.S50000x256, .f32⟩ : BufTy).Contents (Elt Ideal))
    (x2 : (⟨Cert.ReferenceIdeal.S256x300, .f32⟩ : BufTy).Contents (Elt Ideal)) :
    Cert.KernelIdeal.RegionValue.mmOut x0 x2 = Cert.ReferenceIdeal.ReadP.val_main_v32 (F := Ideal) x0 x2 := by
  funext i
  rw [Cert.ReferenceIdeal.ReadP.val_main_v32_apply]
  unfold Cert.KernelIdeal.RegionValue.mmOut
  refine Finset.sum_congr rfl fun k _ => ?_
  have el : Cert.KernelIdeal.RegionValue.lidxA i k = Cert.ReferenceIdeal.ReadP.lidx_main_v32 i k := funext fun a => by
    match a with
    | ⟨0, _⟩ => rfl
    | ⟨1, _⟩ => rfl
  have er : Cert.KernelIdeal.RegionValue.ridxA i k = Cert.ReferenceIdeal.ReadP.ridx_main_v32 i k := funext fun a => by
    match a with
    | ⟨0, _⟩ => rfl
    | ⟨1, _⟩ => rfl
  show x0 (Cert.KernelIdeal.RegionValue.lidxA i k) * x2 (Cert.KernelIdeal.RegionValue.ridxA i k) = _
  rw [el, er]

/-- The bias row's entry `c` is `bf c`. -/
theorem bias_eq (b : (⟨Cert.ReferenceIdeal.S2, .f32⟩ : BufTy).Contents (Elt Ideal)) (i : Cert.ReferenceIdeal.S50000x2.Idx) :
    shapeCast Cert.KernelIdeal.S1x2 b Cert.KernelIdeal.Gen.shapeCasts_S2_S1x2 (Cert.KernelIdeal.RegionValue.bidxB i)
      = b (Cert.ReferenceIdeal.ReadP.idx_main_v51 (Cert.ReferenceIdeal.ReadP.idx_main_v52 i)) := by
  refine shapeCast_apply b _ (Cert.KernelIdeal.RegionValue.bidxB i) (Cert.ReferenceIdeal.ReadP.idx_main_v51 (Cert.ReferenceIdeal.ReadP.idx_main_v52 i)) ?_
  rw [Shape.rowMajor_val_two, Shape.rowMajor_val_one]
  show (i 1).val = 0 * 2 + (i 1).val
  omega

/-- The last stage read off the second pallas_call's blocks is the reference's last stage. -/
theorem fcOut_eq (a : (⟨Cert.ReferenceIdeal.S50000x300, .f32⟩ : BufTy).Contents (Elt Ideal))
    (w : (⟨Cert.ReferenceIdeal.S300x2, .f32⟩ : BufTy).Contents (Elt Ideal))
    (b : (⟨Cert.ReferenceIdeal.S2, .f32⟩ : BufTy).Contents (Elt Ideal)) :
    Cert.KernelIdeal.RegionValue.fcOut a w (shapeCast Cert.KernelIdeal.S1x2 b Cert.KernelIdeal.Gen.shapeCasts_S2_S1x2) = Cert.ReferenceIdeal.Chain.fcR (F := Ideal) a w b := by
  funext i
  rw [Cert.ReferenceIdeal.Chain.fcR_apply]
  unfold Cert.KernelIdeal.RegionValue.fcOut
  refine congrArg₂ (· + ·) (Finset.sum_congr rfl fun k _ => ?_) (bias_eq b i)
  have el : Cert.KernelIdeal.RegionValue.lidxB i k = Cert.ReferenceIdeal.ReadP.lidx_main_v50 i k := funext fun a => by
    match a with
    | ⟨0, _⟩ => rfl
    | ⟨1, _⟩ => rfl
  have er : Cert.KernelIdeal.RegionValue.ridxB i k = Cert.ReferenceIdeal.ReadP.ridx_main_v50 i k := funext fun a => by
    match a with
    | ⟨0, _⟩ => rfl
    | ⟨1, _⟩ => rfl
  show max (a (Cert.KernelIdeal.RegionValue.lidxB i k)) _ * w (Cert.KernelIdeal.RegionValue.ridxB i k) = _
  rw [el, er]

end Cert.Proof.Bridge

end
-- ==== Proof.lean ====
/-
  The certificate of a two-layer graph convolution head: `out = max (agg, 0) · Wf + bf` with
  `agg = segment_sum (norm ⊙ (x · W1)[src], dst) + b1`, the kernel program against its jnp reference.

  The kernel program computes the two matrix products in two pallas_calls, each tiled over ten blocks of 5000 rows with
  the contracted axis whole, the operands narrowed to bf16 before the product; the reference computes them as two host
  dot_generals.  Over the extended reals the narrowing is the identity and a product into a zero accumulator is the plain
  sum over the contracted axis, so each pallas_call's result array is the same whole-array function as the reference's
  product (Region0Value, Region1Value: blocks to array; Bridge: the same sums).  Everything between and before the
  products — degrees, norms, the gather and the scatter-add — is the same host operations in both programs and is carried
  as one function of its leaves (RefChain's `midL`), never opened (HostChain reads the kernel program's stretches into it).
  No algebraic law joins the two sides, so the precondition is not used.

  The three frames: the two kernel programs' are generated; the reference's is its run with the result dropped.  The
  idealization rewrote nothing, so `preserves` is trivial.
-/
import proofs.«161905_j2448131359246_1_alg».proof.Defs
import proofs.«161905_j2448131359246_1_alg».proof.Proof.Gen.Kernel
import proofs.«161905_j2448131359246_1_alg».proof.Proof.Gen.Kernel.Skeleton
import proofs.«161905_j2448131359246_1_alg».proof.Proof.Gen.Kernel.Launch
import proofs.«161905_j2448131359246_1_alg».proof.Proof.Gen.Kernel.Points
import proofs.«161905_j2448131359246_1_alg».proof.Proof.Gen.Kernel.Frame
import proofs.«161905_j2448131359246_1_alg».proof.Proof.Gen.KernelIdeal
import proofs.«161905_j2448131359246_1_alg».proof.Proof.Gen.KernelIdeal.Skeleton
import proofs.«161905_j2448131359246_1_alg».proof.Proof.Gen.KernelIdeal.Launch
import proofs.«161905_j2448131359246_1_alg».proof.Proof.Gen.KernelIdeal.Points
import proofs.«161905_j2448131359246_1_alg».proof.Proof.Gen.KernelIdeal.Frame
import proofs.«161905_j2448131359246_1_alg».proof.Proof.Gen.ReferenceIdeal
import proofs.«161905_j2448131359246_1_alg».proof.Proof.Gen.Pre_finite_inputs
import proofs.«161905_j2448131359246_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same result array: the kernel program's is the last boundary's contents at its result
    buffer (`HostChain.result_eq`), the reference's is its run's composed term; from arguments that agree the two are the
    same function. -/
theorem algebraic : Cert.algebraic_KernelIdeal_ReferenceIdeal := by
  intro m ρ m' ρ' _ hagree
  refine ⟨fun c => Cert.KernelIdeal.Gen.W6 m ρ c (Proc.devRef .tc Cert.KernelIdeal.main_v50), Cert.KernelIdeal.Gen.run_named m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Gen.W6 m ρ c (Proc.devRef .tc Cert.KernelIdeal.main_v50)
  rw [Cert.KernelIdeal.HostChain.result_eq m ρ c, Cert.ReferenceIdeal.ReadP.val_main_v53_eq, (hagree c).1, (hagree c).2.1, (hagree c).2.2.1,
    (hagree c).2.2.2.1, (hagree c).2.2.2.2.1, (hagree c).2.2.2.2.2, Cert.ReferenceIdeal.Chain.val_main_v53_eq_fcR, Cert.ReferenceIdeal.Chain.val_main_v48_eq_midL,
    Bridge.mmOut_eq, Bridge.fcOut_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
